-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x128 : Shape := ⟨2, ![512, 128]⟩
abbrev S512x16 : Shape := ⟨2, ![512, 16]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn_part1 {F : FTy → Type} [FloatOps F] (main_arg4 : FVec F S512x128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  main_v23

def fn {F : FTy → Type} [FloatOps F] (main_arg0 : FVec F S512x128 .f32) (main_arg1 : FVec F S512x128 .f32) (main_arg2 : FVec F S512x128 .f32) (main_arg3 : FVec F S512x128 .f32) (main_arg4 : FVec F S512x128 .f32) (main_arg5 : IVec S512x16 32) : IVec S_ 1 :=
  let main_v0 : FVec F S512x128 .f32 := Host.absf main_arg0
  let main_cst : FVec F S_ .f32 := constant S_ .f32 0x7F800000#32
  let main_v1 : FVec F S512x128 .f32 := broadcastInDim S512x128 ![] bcast_S_S512x128 main_cst
  let main_v2 : IVec S512x128 1 := cmpf .olt main_v0 main_v1
  let main_c : IVec S_ 1 := constantI S_ 1 1#1
  let main_v3 : IVec S_ 1 := (fun x v => Host.reduce IntOp.andi x v reducesTo_S512x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S512x128 : Shape := ⟨2, ![512, 128]⟩
abbrev S512x16 : Shape := ⟨2, ![512, 16]⟩
abbrev S_ : Shape := ⟨0, ![]⟩
abbrev S512 : Shape := ⟨1, ![512]⟩
abbrev S512x1 : Shape := ⟨2, ![512, 1]⟩
abbrev S512x512 : Shape := ⟨2, ![512, 512]⟩
abbrev S512x16x1 : Shape := ⟨3, ![512, 16, 1]⟩
abbrev S512x16x2 : Shape := ⟨3, ![512, 16, 2]⟩
abbrev S128x512 : Shape := ⟨2, ![128, 512]⟩
abbrev S1x512 : Shape := ⟨2, ![1, 512]⟩
abbrev S1x1 : Shape := ⟨2, ![1, 1]⟩
abbrev S8x512 : Shape := ⟨2, ![8, 512]⟩
abbrev S8 : Shape := ⟨1, ![8]⟩
abbrev S8x128 : Shape := ⟨2, ![8, 128]⟩
abbrev S8x512x1 : Shape := ⟨3, ![8, 512, 1]⟩
abbrev S8x1x128 : Shape := ⟨3, ![8, 1, 128]⟩
abbrev S8x512x128 : Shape := ⟨3, ![8, 512, 128]⟩
abbrev S1x8 : Shape := ⟨2, ![1, 8]⟩
abbrev S1 : Shape := ⟨1, ![1]⟩

abbrev nBuf : Space → Nat
  | .hbm => 85
  | .vmem => 7
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x16, .i32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S512, .i32⟩
  | .hbm, ⟨26, _⟩ => ⟨S512x1, .i32⟩
  | .hbm, ⟨27, _⟩ => ⟨S_, .f32⟩
  | .hbm, ⟨28, _⟩ => ⟨S512x512, .f32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S_, .i32⟩
  | .hbm, ⟨33, _⟩ => ⟨S512x1, .i32⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S512x16, .i32⟩
  | .hbm, ⟨38, _⟩ => ⟨S512x16, .i1⟩
  | .hbm, ⟨39, _⟩ => ⟨S_, .i32⟩
  | .hbm, ⟨40, _⟩ => ⟨S512x16, .i32⟩
  | .hbm, ⟨41, _⟩ => ⟨S512x16, .i32⟩
  | .hbm, ⟨42, _⟩ => ⟨S512x16, .i32⟩
  | .hbm, ⟨43, _⟩ => ⟨S512x16, .i32⟩
  | .hbm, ⟨44, _⟩ => ⟨S512x16x1, .i32⟩
  | .hbm, ⟨45, _⟩ => ⟨S512x16x1, .i32⟩
  | .hbm, ⟨46, _⟩ => ⟨S512x16x2, .i32⟩
  | .hbm, ⟨47, _⟩ => ⟨S_, .f32⟩
  | .hbm, ⟨48, _⟩ => ⟨S512x16, .f32⟩
  | .hbm, ⟨49, _⟩ => ⟨S512x512, .f32⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S_, .f32⟩
  | .hbm, ⟨62, _⟩ => ⟨S512x512, .f32⟩
  | .hbm, ⟨63, _⟩ => ⟨S512x512, .f32⟩
  | .hbm, ⟨64, _⟩ => ⟨S_, .f32⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x128, .f32⟩
  | .hbm, ⟨69, _⟩ => ⟨S_, .f32⟩
  | .hbm, ⟨70, _⟩ => ⟨S512, .f32⟩
  | .hbm, ⟨71, _⟩ => ⟨S128x512, .f32⟩
  | .hbm, ⟨72, _⟩ => ⟨S512x512, .f32⟩
  | .hbm, ⟨73, _⟩ => ⟨S512x1, .f32⟩
  | .hbm, ⟨74, _⟩ => ⟨S1x512, .f32⟩
  | .hbm, ⟨75, _⟩ => ⟨S512x512, .f32⟩
  | .hbm, ⟨76, _⟩ => ⟨S512x512, .f32⟩
  | .hbm, ⟨77, _⟩ => ⟨S512x512, .f32⟩
  | .hbm, ⟨78, _⟩ => ⟨S_, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S1x1, .f32⟩
  | .hbm, ⟨83, _⟩ => ⟨S_, .f32⟩
  | .hbm, ⟨84, _⟩ => ⟨S_, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S1x1, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_c : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S512x128_S_d0_1 : S512x128.ReducesTo [0, 1] S_
  h_S_ : 0 < S_.numel
  bcast_S512_S512x1_0 : S512.BroadcastsInDim S512x1 (![0] : Fin 1 → Fin S512x1.rank)
  bcast_S_S512x512 : S_.BroadcastsInDim S512x512 (![] : Fin 0 → Fin S512x512.rank)
  bcast_S_S512x1 : S_.BroadcastsInDim S512x1 (![] : Fin 0 → Fin S512x1.rank)
  bcast_S_S512x16 : S_.BroadcastsInDim S512x16 (![] : Fin 0 → Fin S512x16.rank)
  bcast_S512x1_S512x16_0_1 : S512x1.BroadcastsInDim S512x16 (![0, 1] : Fin 2 → Fin S512x16.rank)
  bcast_S512x16_S512x16x1_0_1 : S512x16.BroadcastsInDim S512x16x1 (![0, 1] : Fin 2 → Fin S512x16x1.rank)
  concatenates_S512x16x1_S512x16x1_S512x16x2_d2 : Shape.Concatenates [S512x16x1, S512x16x1] S512x16x2 2
  reducesTo_S512x128_S512_d1 : S512x128.ReducesTo [1] S512
  transposes_S512x128_S128x512_1_0 : S512x128.Transposes [1, 0] S128x512
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  inb_S1x1_S1x1_0_0 : ∀ a, (![0, 0] : Fin 2 → Nat) a + S1x1.size a ≤ S1x1.size a
  h_S1x1 : 0 < S1x1.numel
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S8x512_o0_0_S8x128 : S8x512.Slices ![0, 0] S8x128
  shapeCasts_S8x512_S8x512x1 : S8x512.ShapeCasts S8x512x1
  shapeCasts_S8x128_S8x1x128 : S8x128.ShapeCasts S8x1x128
  broadcasts_S8x512x1_S8x512x128 : S8x512x1.Broadcasts S8x512x128
  broadcasts_S8x1x128_S8x512x128 : S8x1x128.Broadcasts S8x512x128
  reduces_S8x512x128_S8x512 : S8x512x128.Reduces [2] S8x512
  reduces_S8x512_S8 : S8x512.Reduces [1] S8
  slices_S8x512_o0_128_S8x128 : S8x512.Slices ![0, 128] S8x128
  slices_S8x512_o0_256_S8x128 : S8x512.Slices ![0, 256] S8x128
  slices_S8x512_o0_384_S8x128 : S8x512.Slices ![0, 384] S8x128
  shapeCasts_S8_S1x8 : S8.ShapeCasts S1x8
  reduces_S1x8_S1 : S1x8.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  scatter_S512x512_S512x16x2_S512x16_n_01_01_2_wf : ScatterDims.WF S512x512 S512x16x2 S512x16 [] [0, 1] [0, 1] 2
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S512x512.size a
  hwx0_0 : ∀ i : grid0.Coords, EltTy.bits .f32 = 32 ∨ (Rect.block (s := S512x512) S8x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S512x512.size a
  hwx0_1 : ∀ i : grid0.Coords, EltTy.bits .f32 = 32 ∨ (Rect.block (s := S512x512) S8x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S512x512.size a
  hwx0_2 : ∀ i : grid0.Coords, EltTy.bits .f32 = 32 ∨ (Rect.block (s := S512x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def scatter_S512x512_S512x16x2_S512x16_n_01_01_2 : ScatterDims S512x512 S512x16x2 S512x16 where
  updateWindowDims := []
  insertedWindowDims := [0, 1]
  scatterDimsToOperandDims := [0, 1]
  indexVectorDim := 2
  wf := scatter_S512x512_S512x16x2_S512x16_n_01_01_2_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v59) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S8x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S8x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x128 : Shape := ⟨2, ![512, 128]⟩
abbrev S512x16 : Shape := ⟨2, ![512, 16]⟩
abbrev S_ : Shape := ⟨0, ![]⟩
abbrev S512x512 : Shape := ⟨2, ![512, 512]⟩
abbrev S512 : Shape := ⟨1, ![512]⟩
abbrev S512x1 : Shape := ⟨2, ![512, 1]⟩
abbrev S512x16x1 : Shape := ⟨3, ![512, 16, 1]⟩
abbrev S512x16x2 : Shape := ⟨3, ![512, 16, 2]⟩
abbrev S128x512 : Shape := ⟨2, ![128, 512]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 98
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x16, .i32⟩
  | .hbm, ⟨6, _⟩ => ⟨S512x128, .f32⟩
  | .hbm, ⟨7, _⟩ => ⟨S512x128, .f32⟩
  | .hbm, ⟨8, _⟩ => ⟨S_, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i1⟩
  | .hbm, ⟨26, _⟩ => ⟨S512x512, .i1⟩
  | .hbm, ⟨27, _⟩ => ⟨S512, .i32⟩
  | .hbm, ⟨28, _⟩ => ⟨S512x1, .i32⟩
  | .hbm, ⟨29, _⟩ => ⟨S_, .i32⟩
  | .hbm, ⟨30, _⟩ => ⟨S512x1, .i32⟩
  | .hbm, ⟨31, _⟩ => ⟨S512x1, .i1⟩
  | .hbm, ⟨32, _⟩ => ⟨S_, .i32⟩
  | .hbm, ⟨33, _⟩ => ⟨S512x1, .i32⟩
  | .hbm, ⟨34, _⟩ => ⟨S512x1, .i32⟩
  | .hbm, ⟨35, _⟩ => ⟨S512x1, .i32⟩
  | .hbm, ⟨36, _⟩ => ⟨S_, .i32⟩
  | .hbm, ⟨37, _⟩ => ⟨S512x16, .i32⟩
  | .hbm, ⟨38, _⟩ => ⟨S512x16, .i1⟩
  | .hbm, ⟨39, _⟩ => ⟨S_, .i32⟩
  | .hbm, ⟨40, _⟩ => ⟨S512x16, .i32⟩
  | .hbm, ⟨41, _⟩ => ⟨S512x16, .i32⟩
  | .hbm, ⟨42, _⟩ => ⟨S512x16, .i32⟩
  | .hbm, ⟨43, _⟩ => ⟨S512x16, .i32⟩
  | .hbm, ⟨44, _⟩ => ⟨S512x16x1, .i32⟩
  | .hbm, ⟨45, _⟩ => ⟨S512x16x1, .i32⟩
  | .hbm, ⟨46, _⟩ => ⟨S512x16x2, .i32⟩
  | .hbm, ⟨47, _⟩ => ⟨S_, .i1⟩
  | .hbm, ⟨48, _⟩ => ⟨S512x16, .i1⟩
  | .hbm, ⟨49, _⟩ => ⟨S512x512, .i1⟩
  | .hbm, ⟨50, _⟩ => ⟨S512x512, .i32⟩
  | .hbm, ⟨51, _⟩ => ⟨S512x512, .i32⟩
  | .hbm, ⟨52, _⟩ => ⟨S_, .i32⟩
  | .hbm, ⟨53, _⟩ => ⟨S512x512, .i32⟩
  | .hbm, ⟨54, _⟩ => ⟨S512x512, .i32⟩
  | .hbm, ⟨55, _⟩ => ⟨S512x512, .i1⟩
  | .hbm, ⟨56, _⟩ => ⟨S512x512, .i1⟩
  | .hbm, ⟨57, _⟩ => ⟨S512x512, .i1⟩
  | .hbm, ⟨58, _⟩ => ⟨S512x512, .i1⟩
  | .hbm, ⟨59, _⟩ => ⟨S512x512, .i1⟩
  | .hbm, ⟨60, _⟩ => ⟨S512x512, .i1⟩
  | .hbm, ⟨61, _⟩ => ⟨S512x128, .f32⟩
  | .hbm, ⟨62, _⟩ => ⟨S_, .f32⟩
  | .hbm, ⟨63, _⟩ => ⟨S512, .f32⟩
  | .hbm, ⟨64, _⟩ => ⟨S128x512, .f32⟩
  | .hbm, ⟨65, _⟩ => ⟨S512x512, .f32⟩
  | .hbm, ⟨66, _⟩ => ⟨S512x1, .f32⟩
  | .hbm, ⟨67, _⟩ => ⟨S1x512, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S512x512, .f32⟩
  | .hbm, ⟨75, _⟩ => ⟨S512x512x1, .f32⟩
  | .hbm, ⟨76, _⟩ => ⟨S512x1x512, .f32⟩
  | .hbm, ⟨77, _⟩ => ⟨S512x512x512, .f32⟩
  | .hbm, ⟨78, _⟩ => ⟨S512x512x512, .f32⟩
  | .hbm, ⟨79, _⟩ => ⟨S512x512x512, .f32⟩
  | .hbm, ⟨80, _⟩ => ⟨S_, .f32⟩
  | .hbm, ⟨81, _⟩ => ⟨S512x512x512, .f32⟩
  | .hbm, ⟨82, _⟩ => ⟨S512x512x512, .f32⟩
  | .hbm, ⟨83, _⟩ => ⟨S512x512x1, .i1⟩
  | .hbm, ⟨84, _⟩ => ⟨S512x1x512, .i1⟩
  | .hbm, ⟨85, _⟩ => ⟨S512x512x512, .i1⟩
  | .hbm, ⟨86, _⟩ => ⟨S512x512x512, .i1⟩
  | .hbm, ⟨87, _⟩ => ⟨S512x512x512, .i1⟩
  | .hbm, ⟨88, _⟩ => ⟨S_, .f32⟩
  | .hbm, ⟨89, _⟩ => ⟨S512x512x512, .f32⟩
  | .hbm, ⟨90, _⟩ => ⟨S512x512x512, .f32⟩
  | .hbm, ⟨91, _⟩ => ⟨S_, .f32⟩
  | .hbm, ⟨92, _⟩ => ⟨S_, .f32⟩
  | .hbm, ⟨93, _⟩ => ⟨S512x512x512, .f32⟩
  | .hbm, ⟨94, _⟩ => ⟨S512x512x512, .f32⟩
  | .hbm, ⟨95, _⟩ => ⟨S_, .f32⟩
  | .hbm, ⟨96, _⟩ => ⟨S_, .f32⟩
  | .hbm, ⟨97, _⟩ => ⟨S_, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_call0_cst : Ref sig .tc := ⟨.hbm, 88, rfl⟩
abbrev main_call0_v0 : Ref sig .tc := ⟨.hbm, 89, rfl⟩
abbrev main_v68 : Ref sig .tc := ⟨.hbm, 90, rfl⟩
abbrev main_cst_12 : Ref sig .tc := ⟨.hbm, 91, rfl⟩
abbrev main_call1_v0 : Ref sig .tc := ⟨.hbm, 92, rfl⟩
abbrev main_call1_v1 : Ref sig .tc := ⟨.hbm, 93, rfl⟩
abbrev main_v69 : Ref sig .tc := ⟨.hbm, 94, rfl⟩
abbrev main_cst_13 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]

class Facts₀ : Prop where
  reducesTo_S512x128_S_d0_1 : S512x128.ReducesTo [0, 1] S_
  h_S_ : 0 < S_.numel
  bcast_S_S512x512 : S_.BroadcastsInDim S512x512 (![] : Fin 0 → Fin S512x512.rank)
  bcast_S512_S512x1_0 : S512.BroadcastsInDim S512x1 (![0] : Fin 1 → Fin S512x1.rank)
  bcast_S_S512x1 : S_.BroadcastsInDim S512x1 (![] : Fin 0 → Fin S512x1.rank)
  bcast_S_S512x16 : S_.BroadcastsInDim S512x16 (![] : Fin 0 → Fin S512x16.rank)
  bcast_S512x1_S512x16_0_1 : S512x1.BroadcastsInDim S512x16 (![0, 1] : Fin 2 → Fin S512x16.rank)
  bcast_S512x16_S512x16x1_0_1 : S512x16.BroadcastsInDim S512x16x1 (![0, 1] : Fin 2 → Fin S512x16x1.rank)
  concatenates_S512x16x1_S512x16x1_S512x16x2_d2 : Shape.Concatenates [S512x16x1, S512x16x1] S512x16x2 2
  reducesTo_S512x128_S512_d1 : S512x128.ReducesTo [1] S512
  transposes_S512x128_S128x512_1_0 : S512x128.Transposes [1, 0] S128x512
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  reducesTo_S512x512x512_S_d0_1_2 : S512x512x512.ReducesTo [0, 1, 2] S_
  scatter_S512x512_S512x16x2_S512x16_n_01_01_2_wf : ScatterDims.WF S512x512 S512x16x2 S512x16 [] [0, 1] [0, 1] 2
  dot_S512x128_S128x512_S512x512_1_0_0_1_n_n_wf : DotDims.WF S512x128 S128x512 S512x512 [1] [0] [0] [1] [] []

variable [Facts₀]

def scatter_S512x512_S512x16x2_S512x16_n_01_01_2 : ScatterDims S512x512 S512x16x2 S512x16 where
  updateWindowDims := []
  insertedWindowDims := [0, 1]
  scatterDimsToOperandDims := [0, 1]
  indexVectorDim := 2
  wf := scatter_S512x512_S512x16x2_S512x16_n_01_01_2_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

class Facts : Prop extends Facts₀ where

variable [Facts]
-- ==== Proof.KernelCases.lean ====
/-
  What one run of the kernel body leaves in the 1×1 output block.

  The body adds the block's sum to the output block: it loads the three input blocks (8 rows of the distance matrix and of
  the two masks), computes one number from them, and stores "old contents + that number". At the first grid point it first
  stores 0 and so reads that 0 back as the old contents; at every later point the old contents are what the point before
  left. Both cases are the same function `stored` of the three input blocks and of the contents found.
-/
import proofs.«170872_j69793218560006_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValue

open Cert.KernelIdeal Cert.KernelIdeal.Gen

variable {F : FTy → Type} [FloatOps F]

theorem hz : (![0, 0] : Fin 2 → Nat) = fun _ => 0 := funext fun a => by fin_cases a <;> rfl

/-- The value the body stores: the contents found, `acc`, plus the block's number computed from the three input blocks
    (the distance rows `x0`, the first mask's rows `x1`, the second mask's rows `x2`). -/
def stored (x0 x1 x2 : Vec F S8x512 .f32) (acc : Vec F S1x1 .f32) : Vec F S1x1 .f32 :=
  k0_pay1 (k0_pay10 (k0_pay3 x0) (k0_pay4 x1) (k0_pay5 x2) (k0_pay6 x0 x1 x2) (k0_pay7 x2) (k0_pay8 x0) (k0_pay9 x1)) acc

/-- The zero block the first point stores before it accumulates. -/
abbrev zeroBlock : Vec F S1x1 .f32 := k0_pay2 (F := F)

/-- At a later point (the output not reset) the body leaves `stored` over what the block held. -/
theorem out_B (c : Dev nD) (i : grid0.Coords) (a1 : Memref sig .tc .vmem S8x512 .f32) (h1 : a1.IsWhole)
    (a2 : Memref sig .tc .vmem S8x512 .f32) (h2 : a2.IsWhole) (a3 : Memref sig .tc .vmem S8x512 .f32) (h3 : a3.IsWhole)
    (a4 : Memref sig .tc .vmem S1x1 .f32) (h4 : a4.IsWhole) (hc : ¬cond0_0 i)
    (x0 x1 x2 : Vec F S8x512 .f32) (xo : Vec F S1x1 .f32) :
    out0_B_3 c i a1 h1 a2 h2 a3 h3 a4 h4 hc x0 x1 x2 xo = stored x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  unfold stored
  simp only [View.readAt_eq_ld, h1.read_unread, h2.read_unread, h3.read_unread, h4.read_unread,
    View.ld_unit_zero (S := S8x512) hz, View.ld_unit_zero (S := S1x1) hz]

/-- At the first point the body stores the zero block, reads it back, and leaves `stored` over it. -/
theorem out_A (c : Dev nD) (i : grid0.Coords) (a1 : Memref sig .tc .vmem S8x512 .f32) (h1 : a1.IsWhole)
    (a2 : Memref sig .tc .vmem S8x512 .f32) (h2 : a2.IsWhole) (a3 : Memref sig .tc .vmem S8x512 .f32) (h3 : a3.IsWhole)
    (a4 : Memref sig .tc .vmem S1x1 .f32) (h4 : a4.IsWhole) (hc : cond0_0 i)
    (x0 x1 x2 : Vec F S8x512 .f32) :
    out0_A_3 c i a1 h1 a2 h2 a3 h3 a4 h4 hc x0 x1 x2 = stored x0 x1 x2 zeroBlock := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  unfold stored
  simp only [View.readAt_eq_ld, h1.read_unread, h2.read_unread, h3.read_unread,
    View.ld_unit_zero (S := S8x512) hz, View.ld_unit_zero (S := S1x1) hz]

end Cert.KernelIdeal.CaseValue

end
-- ==== Proof.KernelRun.lean ====
/-
  The kernel's run, read: what the result buffer holds after the program.

  The 1×1 output block is carried from one grid point to the next: after point 0 it holds `stored` of the first
  blocks over the zero block, after point n + 1 `stored` of that point's blocks over what point n left (`acc`, by
  induction on the point). The block index never moves, so the block is written back once, after the last point (63),
  and that one write-back covers the whole 1×1 array: the array ends at `acc` after point 63. The two host operations
  after the region reshape it to a scalar and add it to the first loss term, which the operations before the region
  computed.
-/
import proofs.«170872_j69793218560006_1_alg».proof.Proof.KernelCases
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.KernelIdeal.CaseValue

variable {F : FTy → Type} [FloatOps F]
variable (m : (ℓ : Loc nD τ sig) → Buf (Elt F) ℓ) (ρ : Dev nD → PrngReg)

/-- What the output block holds after point `n`: `stored` of the point's three input blocks over what the point before
    left, the zero block before the first. -/
def acc (c : Dev nD) : (n : ℕ) → n < cfg0.N → Vec F S1x1 .f32
  | 0, h => stored (iblk m c 0 ⟨0, h⟩) (iblk m c 1 ⟨0, h⟩) (iblk m c 2 ⟨0, h⟩) zeroBlock
  | n + 1, h => stored (iblk m c 0 ⟨n + 1, h⟩) (iblk m c 1 ⟨n + 1, h⟩) (iblk m c 2 ⟨n + 1, h⟩) (acc c n (Nat.lt_of_succ_lt h))

/-- The contents the frame run names after each point are `acc`: by induction on the point. -/
theorem outsAt_eq (c : Dev nD) : ∀ (n : ℕ) (h : n < cfg0.N), outsAt0 m c n h = acc m c n h
  | 0, h => (outsAt0_A m c ⟨0, h⟩ rfl).trans (out_A ..)
  | n + 1, h => by
    have hN : cfg0.N = 64 := N_0
    have hB : ¬(⟨n + 1, h⟩ : Fin cfg0.N).val % 64 = 0 := by dsimp only; omega
    rw [outsAt0_B m c ⟨n + 1, h⟩ hB, out_B]
    show stored _ _ _ (outsAt0 m c n _) = stored _ _ _ (acc m c n _)
    rw [outsAt_eq c n]

/-- The last grid point. -/
theorem hlast : 63 < cfg0.N := by rw [show cfg0.N = 64 from N_0]; decide
abbrev lastPt : Fin cfg0.N := ⟨63, hlast⟩

/-- The output array after the run: the carried block after the last point (its one block IS the array). -/
abbrev result (c : Dev nD) : Buf (Elt F) ((c : Thread nD τ).loc main_v60) := acc m c 63 hlast

/-- The one write-back, after point 63, writes it: block (0, 0) of the 1×1 array read through zero offsets is the array. -/
theorem flushed_eq (c : Dev nD) (t : Fin cfg0.N) (hf : (cfg0.win 3).flush t = true) :
    (dats m 0 c).flushed 3 t = ((cfg0.win 3).blk t).view.read (Elt F) (result m c) := by
  have hN : cfg0.N = 64 := N_0
  have h63 : t.val = 63 := by have := (flush0_3 t).mp hf; have := t.isLt; omega
  obtain rfl : t = lastPt := Fin.ext h63
  show (cfg0.win 3).cut (grid0.coords lastPt) ((dats m 0 c).after 3 lastPt) = _
  rw [after0_3, outsAt_eq]
  have hz' : (fun a => win0_3.index lastPt a * main_v60.ty.shape.size a) = fun _ => 0 := funext fun a => by fin_cases a <;> decide
  exact (Memref.read_access_unit_zero (Elt F) main_v60 hz' (fun a => by rw [congrFun hz' a]; simp) (result m c)).symm

/-- So the output array ends at the carried block after point 63: that point's write-back covers it. -/
theorem final_o (c : Dev nD) : (dats m 0 c).arrAt 3 cfg0.N = result m c :=
  (dats m 0 c).arrAt_eq_of_cover 3 (result m c) (flushed_eq m c) fun i =>
    ⟨lastPt, (flush0_3 lastPt).mpr rfl, by
      show i ∈ ((View.whole main_v60).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_3.index lastPt 0 * win0_3.size 0 ≤ (i 0 : Nat) ∧ (i 0 : Nat) < win0_3.index lastPt 0 * win0_3.size 0 + win0_3.xsize (grid0.coords lastPt) 0
                  rw [show win0_3.index lastPt 0 * win0_3.size 0 = 0 from by decide +kernel, show win0_3.xsize (grid0.coords lastPt) 0 = 1 from by decide +kernel]; omega
      | ⟨1, _⟩ => show win0_3.index lastPt 1 * win0_3.size 1 ≤ (i 1 : Nat) ∧ (i 1 : Nat) < win0_3.index lastPt 1 * win0_3.size 1 + win0_3.xsize (grid0.coords lastPt) 1
                  rw [show win0_3.index lastPt 1 * win0_3.size 1 = 0 from by decide +kernel, show win0_3.xsize (grid0.coords lastPt) 1 = 1 from by decide +kernel]; omega⟩

/-- The two host operations after the region: the scalar result is the first loss term plus the output array reshaped. -/
theorem tail_eq (c : Dev nD) :
    Pipeline.afterTail₀ cfgs (dats m) 0 (V0 m) [hostOps1] c main_v62
      = addf (V m c main_v14) (shapeCast S_ (result m c) shapeCasts_S1x1_S_) := by
  unfold Pipeline.afterTail₀
  show StableHlo.after hostOps1 _ (Proc.devRef .tc main_v62) = _
  after_results
  rw [Pipeline.withArrays_of_ne _ c (V0 m c) _ main_v14 (by exact (by decide : ∀ w, Pipeline.arrRef spec0 w ≠ main_v14))]
  rw [show Pipeline.withArrays (cfgs 0).spec c (V0 m c) (fun w => (dats m 0 c).arrAt w (cfgs 0).N) (Proc.devRef .tc main_v60)
      = result m c from (Pipeline.withArrays_arr spec0 launch0.win.arr_inj c _ _ 3).trans (final_o m c)]
  rfl

/-- The run, read: the result buffer at the first loss term plus the carried block after the last point, reshaped; the
    six arguments unchanged. -/
theorem run : θ_run defs (onTc (τ := τ) (main (F := F))) ⟨m, fun _ => 0, ρ⟩ fun r => ∀ c : Dev nD,
      r.2.mem ((c.tc : Thread nD τ).loc main_v62) = addf (V m c main_v14) (shapeCast S_ (result m c) shapeCasts_S1x1_S_)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v62 (Pipeline.mem_restRefs_of main_v62 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.RunValue
end
-- ==== Proof.LibScatterMap.lean ====
/-
  A scatter whose body returns the update commutes with any map of the elements.

  `Host.scatter d f x idx upd` folds over the update indices in row-major order; at each one the landing index is computed
  from the dimension record and the scatter indices alone (an update whose landing index leaves the operand is dropped), and
  the element there is replaced by `f` of the old element and the update. When `f` is `fun _ b => b` the old element is not
  read, so mapping every element of the result through `g` is the same as scattering the mapped updates into the mapped
  operand: the two folds visit the same landing indices in the same order. In particular a scatter of ones into zeros in one
  element type is the image of the scatter of `true` into `false` under the map bit ↦ 0 / 1, whatever the indices are
  (repeated, out of range).
-/
import Idealize.ShloMosaic.PureOps.ShapeOps

namespace Idealize.ShloMosaic

/-- Mapping the result of a "set" scatter through `g` is the "set" scatter of the mapped operand and the mapped updates
    at the same indices. The dimension record on the right may be another record with the same fields
    (it is the same term up to the proof of its well-formedness). -/
theorem Host.scatter_set_map {α β : Type} {s si u : Shape} {w : Nat} (d : ScatterDims s si u) (g : α → β)
    (x : s.Idx → α) (idx : IVec si w) (upd : u.Idx → α) :
    (fun i => g (Host.scatter d (fun _ b => b) x idx upd i))
      = Host.scatter d (fun _ b => b) (fun i => g (x i)) idx (fun j => g (upd j)) := by
  unfold Host.scatter
  induction (List.finRange u.numel) generalizing x with
  | nil => rfl
  | cons n l ih =>
    simp only [List.foldl_cons]
    rw [ih]
    congr 1
    cases d.resultIdx? (u.rowMajor.symm n) idx with
    | none => rfl
    | some i =>
      funext i'
      dsimp only
      split <;> rfl

end Idealize.ShloMosaic
-- ==== Proof.TripletSums.lean ====
/-
  The mathematics of the triplet sum, on the extended reals and free of either program.

  A mask bit is read as the extended real 0 or 1 (`bitVal`). Three facts:

  * masks as arithmetic: for a set of rows `M` and the diagonal `e`, `bitVal M · (1 − e)` is the value of the bit
    `M ∧ ¬e` and `(1 − bitVal M) · (1 − e)` that of `¬M ∧ ¬e` (here `e` is the diagonal bit converted to a float:
    its unsigned value, 0 or 1);
  * a term weighted by two such masks, `x · p · n`, is `x` where both bits are set and 0 elsewhere — on EVERY
    extended real `x`, the infinities included, because `x · 1 = x` and `x · 0 = 0` hold there without exception:
    no finiteness is used;
  * the tiled sum — rows cut into 64 blocks of 8, columns into 4 chunks of 128, a row's four chunk sums added one after
    the other onto 0, the 8 row totals of a block added, the 64 block totals added in order onto 0 — is the plain
    triple sum over (i, j, k): addition of extended reals is commutative and associative, so only the indexing
    (i = 8t + r, k = 128c + l) has to be matched.
-/
import Idealize.ShloMosaic.PureOps.Ideal.Laws
import Idealize.ShloMosaic.Lib.ValueIdx

noncomputable section

open scoped BigOperators

namespace Cert.Triplet

open Idealize.ShloMosaic Idealize.ShloMosaic.ValueIdx

/-! ## Mask bits as numbers -/

/-- A mask bit as an extended real: 1 when set, 0 when clear. -/
def bitVal (b : BitVec 1) : EReal := if b = 1#1 then 1 else 0

theorem bitVal_one : bitVal 1#1 = 1 := if_pos rfl
theorem bitVal_zero : bitVal 0#1 = 0 := if_neg (by decide)

/-- A bit is clear or set. -/
theorem bit_cases (b : BitVec 1) : b = 0#1 ∨ b = 1#1 := by
  by_cases h : b = 1#1
  · exact Or.inr h
  · exact Or.inl (eq_zero_of_ne_one h)

/-- The unsigned value of a bit, as an extended real, is its mask value. -/
theorem toNat_cast_eq_bitVal (b : BitVec 1) : ((b.toNat : ℝ) : EReal) = bitVal b := by
  rcases bit_cases b with rfl | rfl
  · rw [bitVal_zero]; simp
  · rw [bitVal_one]; simp

theorem one_sub_one : (1 : EReal) - 1 = 0 := by
  rw [← EReal.coe_one, ← EReal.coe_sub, sub_self, EReal.coe_zero]

theorem one_sub_zero : (1 : EReal) - 0 = 1 := sub_zero 1

/-- Off the diagonal and in the set: `M · (1 − e)` is the value of the bit `M ∧ ¬e`. -/
theorem bitVal_mul_one_sub (M e : BitVec 1) : bitVal M * (1 - bitVal e) = bitVal (M &&& ~~~e) := by
  rcases bit_cases M with rfl | rfl <;> rcases bit_cases e with rfl | rfl <;>
    simp only [bitVal_one, bitVal_zero, one_sub_one, one_sub_zero, mul_zero, mul_one, zero_mul]
  · exact bitVal_zero.symm
  · exact bitVal_zero.symm
  · exact bitVal_one.symm
  · exact bitVal_zero.symm

/-- Off the diagonal and outside the set: `(1 − M) · (1 − e)` is the value of the bit `¬M ∧ ¬e`. -/
theorem one_sub_bitVal_mul_one_sub (M e : BitVec 1) : (1 - bitVal M) * (1 - bitVal e) = bitVal (~~~M &&& ~~~e) := by
  rcases bit_cases M with rfl | rfl <;> rcases bit_cases e with rfl | rfl <;>
    simp only [bitVal_one, bitVal_zero, one_sub_one, one_sub_zero, mul_zero, mul_one, zero_mul]
  · exact bitVal_one.symm
  · exact bitVal_zero.symm
  · exact bitVal_zero.symm
  · exact bitVal_zero.symm

/-- A term weighted by two mask values is the term where both bits are set, 0 elsewhere: on every extended real. -/
theorem mul_bitVal_mul_bitVal (x : EReal) (p n : BitVec 1) :
    x * bitVal p * bitVal n = if (p &&& n) = 1#1 then x else 0 := by
  rcases bit_cases p with rfl | rfl <;> rcases bit_cases n with rfl | rfl <;>
    simp only [bitVal_one, bitVal_zero, mul_zero, mul_one, zero_mul]
  · exact (if_neg (by decide)).symm
  · exact (if_neg (by decide)).symm
  · exact (if_neg (by decide)).symm
  · exact (if_pos (by decide)).symm

/-! ## The tiled sum is the triple sum -/

/-- Row `r` of block `t`: rows are cut into 64 blocks of 8. -/
def rowAt (t : Fin 64) (r : Fin 8) : Fin 512 := ⟨8 * t.val + r.val, by have := t.isLt; have := r.isLt; omega⟩
/-- Column `l` of chunk `c`: columns are cut into 4 chunks of 128. -/
def colAt (c : Fin 4) (l : Fin 128) : Fin 512 := ⟨128 * c.val + l.val, by have := c.isLt; have := l.isLt; omega⟩

/-- A sum over `a · b` consecutive positions, cut into `a` runs of `b`. -/
theorem sum_cut {M : Type*} [AddCommMonoid M] (a b N : ℕ) (hN : a * b = N) (f : Fin N → M) :
    ∑ i : Fin N, f i = ∑ x : Fin a, ∑ y : Fin b, f ⟨b * x.val + y.val, by
      have := x.isLt; have := y.isLt
      calc b * x.val + y.val < b * x.val + b := by omega
        _ = b * (x.val + 1) := by ring
        _ ≤ b * a := Nat.mul_le_mul_left b (by omega)
        _ = N := by rw [Nat.mul_comm]; exact hN⟩ := by
  subst hN
  rw [← Equiv.sum_comp finProdFinEquiv f, Fintype.sum_prod_type]
  refine Finset.sum_congr rfl fun x _ => Finset.sum_congr rfl fun y _ => congrArg f (Fin.ext ?_)
  show y.val + b * x.val = b * x.val + y.val
  omega

/-- One chunk's share of a row: the sum over every `j` and the chunk's 128 columns of the row's terms `R j k`. -/
def chunkSum (R : Fin 512 → Fin 512 → EReal) (c : Fin 4) : EReal := ∑ j : Fin 512, ∑ l : Fin 128, R j (colAt c l)

/-- A row's total as it is accumulated: the four chunk sums added in order onto 0. -/
def rowTotal (R : Fin 512 → Fin 512 → EReal) : EReal :=
  (((0 + chunkSum R 0) + chunkSum R 1) + chunkSum R 2) + chunkSum R 3

/-- A block's total: its 8 row totals. -/
def blockTotal (T : Fin 512 → Fin 512 → Fin 512 → EReal) (t : Fin 64) : EReal := ∑ r : Fin 8, rowTotal (T (rowAt t r))

/-- The running total after block `n`: block totals added in order onto 0 (blocks past the last count as 0). -/
def runningTotal (B : Fin 64 → EReal) : ℕ → EReal
  | 0 => 0 + (if h : 0 < 64 then B ⟨0, h⟩ else 0)
  | n + 1 => runningTotal B n + (if h : n + 1 < 64 then B ⟨n + 1, h⟩ else 0)

/-- A row's accumulated total is the double sum over `j` and all 512 columns. -/
theorem rowTotal_eq (R : Fin 512 → Fin 512 → EReal) : rowTotal R = ∑ j : Fin 512, ∑ k : Fin 512, R j k := by
  unfold rowTotal chunkSum
  rw [zero_add]
  have h : ∀ j : Fin 512, ∑ k : Fin 512, R j k = ∑ c : Fin 4, ∑ l : Fin 128, R j (colAt c l) := fun j => by
    rw [sum_cut 4 128 512 rfl (fun k => R j k)]
    rfl
  calc _ = ∑ c : Fin 4, ∑ j : Fin 512, ∑ l : Fin 128, R j (colAt c l) := by rw [Fin.sum_univ_four]
    _ = ∑ j : Fin 512, ∑ c : Fin 4, ∑ l : Fin 128, R j (colAt c l) := Finset.sum_comm
    _ = _ := Finset.sum_congr rfl fun j _ => (h j).symm

theorem runningTotal_eq (B : Fin 64 → EReal) (n : ℕ) :
    runningTotal B n = ∑ t ∈ Finset.range (n + 1), (if h : t < 64 then B ⟨t, h⟩ else 0) := by
  induction n with
  | zero => simp [runningTotal]
  | succ n ih => rw [runningTotal, ih, Finset.sum_range_succ _ (n + 1)]

/-- After the last block the running total is the sum of all 64 block totals. -/
theorem runningTotal_last (B : Fin 64 → EReal) : runningTotal B 63 = ∑ t : Fin 64, B t := by
  rw [runningTotal_eq, Finset.sum_range (fun t => if h : t < 64 then B ⟨t, h⟩ else 0)]
  exact Finset.sum_congr rfl fun t _ => by rw [dif_pos t.isLt]

/-- The 64 block totals add up to the plain triple sum. -/
theorem sum_blockTotal (T : Fin 512 → Fin 512 → Fin 512 → EReal) :
    ∑ t : Fin 64, blockTotal T t = ∑ i : Fin 512, ∑ j : Fin 512, ∑ k : Fin 512, T i j k := by
  rw [sum_cut 64 8 512 rfl (fun i => ∑ j : Fin 512, ∑ k : Fin 512, T i j k)]
  refine Finset.sum_congr rfl fun t _ => ?_
  unfold blockTotal
  exact Finset.sum_congr rfl fun r _ => rowTotal_eq (T (rowAt t r))

/-! ## A sum over a rank-3 index set is the triple sum over its coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.Triplet

end
-- ==== Proof.KernelGlue.lean ====
/-
  The arrays the kernel region finds, as the reference's own stages.

  Before the region the kernel's host program computes, from the same arguments and by the same operations as the
  reference, the first loss term and the matrix of squared distances: those two are the reference's stages, term for term.
  The two masks it computes differently: it scatters the float 1 into a float matrix of zeros where the reference
  scatters the bit `true` into a matrix of `false` — at the same indices —, and then forms the masks by arithmetic,
  `M · (1 − e)` and `(1 − M) · (1 − e)` with `e` the diagonal converted to a float, where the reference uses `M ∧ ¬e`
  and `¬M ∧ ¬e`. A scatter whose body returns the update commutes with any map of the elements, so the float scatter is
  the bit scatter read through bit ↦ 0 / 1, whatever the indices (repeated or out of range); and on 0 / 1 values the
  arithmetic is the logic. So each kernel mask is, entry by entry, the 0 / 1 value of the reference's mask bit.
-/
import proofs.«170872_j69793218560006_1_alg».proof.Proof.Gen.KernelIdeal.Frame
import proofs.«170872_j69793218560006_1_alg».proof.Proof.Gen.ReferenceIdeal.Read
import proofs.«170872_j69793218560006_1_alg».proof.Proof.LibScatterMap
import proofs.«170872_j69793218560006_1_alg».proof.Proof.TripletSums
import Idealize.ShloMosaic.Lib.Pipeline.Value
import Idealize.ShloMosaic.Lib.StableHlo.Run
import Idealize.ShloMosaic.Lib.ValueIdx
import Idealize.ShloMosaic.PureOps.Ideal.Laws
import Idealize.ShloMosaic.PureOps.IdealRules

noncomputable section

open Idealize.ShloMosaic Idealize.ShloMosaic.TcCoe Idealize.SL.Sem Idealize.ShloMosaic.ValueIdx

namespace Cert.KernelIdeal.Glue

open Cert.KernelIdeal Cert.KernelIdeal.Gen Cert.Triplet

/-! ## The region-entry arrays, at any instance -/

section AnyInstance

variable {F : FTy → Type} [FloatOps F]
variable (m : (ℓ : Loc nD τ sig) → Buf (Elt F) ℓ)

/-- The float scatter of the kernel's host program: ones written into a matrix of zeros at the index pairs `idx`. -/
def onesAt (idx : IVec S512x16x2 32) : FVec F S512x512 .f32 :=
  Host.scatter scatter_S512x512_S512x16x2_S512x16_n_01_01_2 (fun _ b => b)
    (broadcastInDim S512x512 ![] bcast_S_S512x512 (constant S_ .f32 0x00000000#32)) idx
    (broadcastInDim S512x16 ![] bcast_S_S512x16 (constant S_ .f32 0x3F800000#32))

/-- "One minus the diagonal": the matrix of ones minus the diagonal bits converted to floats. -/
def offDiag (eye : IVec S512x512 1) : FVec F S512x512 .f32 :=
  subf (broadcastInDim S512x512 ![] bcast_S_S512x512 (constant S_ .f32 0x3F800000#32)) (uitofp .f32 eye)

set_option maxHeartbeats 4000000 in
/-- The matrix of squared distances the region finds is the reference's. -/
theorem V_dist (c : Dev nD) :
    V m c main_v59 = Cert.ReferenceIdeal.Read.val_main_v55 (F := F) (m ((c.tc : Thread nD τ).loc main_arg4)) := by
  dsimp only [V, V0]
  simp only [hostOps0, List.flatten_cons, List.flatten_nil, List.append_nil]
  after_results_simp
  rfl

set_option maxHeartbeats 4000000 in
/-- The first loss term the region finds (and the tail adds to) is the reference's. -/
theorem V_loss (c : Dev nD) :
    V m c main_v14 = Cert.ReferenceIdeal.Read.val_main_v14 (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) := by
  dsimp only [V, V0]
  simp only [hostOps0, List.flatten_cons, List.flatten_nil, List.append_nil]
  after_results_simp
  rfl

set_option maxHeartbeats 4000000 in
/-- The first mask the region finds: the float scatter times "one minus the diagonal", over the reference's index pairs
    and diagonal bits. -/
theorem V_pos (c : Dev nD) :
    V m c main_v42 = mulf (onesAt (F := F) (Cert.ReferenceIdeal.Read.val_main_v31 (F := F) (m ((c.tc : Thread nD τ).loc main_arg5))))
      (offDiag (F := F) (Cert.ReferenceIdeal.Read.val_main_v38 (F := F))) := by
  dsimp only [V, V0]
  simp only [hostOps0, List.flatten_cons, List.flatten_nil, List.append_nil]
  after_results_simp
  rfl

set_option maxHeartbeats 4000000 in
/-- The second mask the region finds: "one minus the float scatter" times "one minus the diagonal". -/
theorem V_neg (c : Dev nD) :
    V m c main_v47 = mulf
      (subf (broadcastInDim S512x512 ![] bcast_S_S512x512 (constant S_ .f32 0x3F800000#32))
        (onesAt (F := F) (Cert.ReferenceIdeal.Read.val_main_v31 (F := F) (m ((c.tc : Thread nD τ).loc main_arg5)))))
      (offDiag (F := F) (Cert.ReferenceIdeal.Read.val_main_v38 (F := F))) := by
  dsimp only [V, V0]
  simp only [hostOps0, List.flatten_cons, List.flatten_nil, List.append_nil]
  after_results_simp
  rfl

end AnyInstance

/-! ## The masks on the extended reals: the 0 / 1 values of the reference's bits -/

/-- The float literal 1.0 is the extended real 1. -/
theorem ofBits_one : Ideal.ofBits .f32 0x3F800000#32 = 1 := IdealRules.sign_bit.ideal_onePat .f32

/-- A scalar constant broadcast to a matrix reads the constant everywhere. -/
theorem splat_apply {t : Shape} (h : S_.BroadcastsInDim t (![] : Fin 0 → Fin t.rank)) (b : BitVec 32) (i : t.Idx) :
    broadcastInDim t ![] h (constant (F := Ideal) S_ .f32 b) i = Ideal.ofBits .f32 b :=
  broadcastInDim_apply _ h _ i ix0 (fun a => a.elim0)

/-- The float scatter is the reference's bit scatter read through bit ↦ 0 / 1. -/
theorem onesAt_apply (x5 : (⟨Cert.ReferenceIdeal.S512x16, .i32⟩ : BufTy).Contents (Elt Ideal)) (i : S512x512.Idx) :
    onesAt (F := Ideal) (Cert.ReferenceIdeal.Read.val_main_v31 (F := Ideal) x5) i
      = bitVal (Cert.ReferenceIdeal.Read.val_main_v33 (F := Ideal) x5 i) := by
  have h := Host.scatter_set_map Cert.ReferenceIdeal.scatter_S512x512_S512x16x2_S512x16_n_01_01_2 bitVal
    (Cert.ReferenceIdeal.Read.val_main_v15 (F := Ideal)) (Cert.ReferenceIdeal.Read.val_main_v31 (F := Ideal) x5)
    (Cert.ReferenceIdeal.Read.val_main_v32 (F := Ideal))
  have h0 : (fun i => bitVal (Cert.ReferenceIdeal.Read.val_main_v15 (F := Ideal) i))
      = broadcastInDim S512x512 ![] bcast_S_S512x512 (constant (F := Ideal) S_ .f32 0x00000000#32) := funext fun i => by
    rw [Cert.ReferenceIdeal.Read.val_main_v15_apply, Cert.ReferenceIdeal.Read.val_main_c_apply, bitVal_zero, splat_apply,
      Ideal.ofBits_zero_f32]
  have h1 : (fun j => bitVal (Cert.ReferenceIdeal.Read.val_main_v32 (F := Ideal) j))
      = broadcastInDim S512x16 ![] bcast_S_S512x16 (constant (F := Ideal) S_ .f32 0x3F800000#32) := funext fun j => by
    rw [Cert.ReferenceIdeal.Read.val_main_v32_apply, Cert.ReferenceIdeal.Read.val_main_c_7_apply, bitVal_one, splat_apply,
      ofBits_one]
  rw [h0, h1] at h
  exact (congrFun h i).symm

/-- "One minus the diagonal" at an entry: 1 minus the 0 / 1 value of the diagonal bit. -/
theorem offDiag_apply (eye : IVec S512x512 1) (i : S512x512.Idx) :
    offDiag (F := Ideal) eye i = 1 - bitVal (eye i) := by
  unfold offDiag
  rw [subf_apply, splat_apply, ofBits_one]
  exact congrArg (fun z => (1 : EReal) - z) (toNat_cast_eq_bitVal (eye i))

/-- The first mask, entry by entry, is the 0 / 1 value of the reference's first mask bit (in the set, off the diagonal). -/
theorem pos_apply (m : (ℓ : Loc nD τ sig) → Buf (Elt Ideal) ℓ) (c : Dev nD) (i : S512x512.Idx) :
    V m c main_v42 i = bitVal (Cert.ReferenceIdeal.Read.val_main_v40 (F := Ideal) (m ((c.tc : Thread nD τ).loc main_arg5)) i) := by
  rw [V_pos, mulf_apply, onesAt_apply, offDiag_apply, bitVal_mul_one_sub]
  rfl

/-- The second mask, entry by entry, is the 0 / 1 value of the reference's second mask bit (outside the set, off the diagonal). -/
theorem neg_apply (m : (ℓ : Loc nD τ sig) → Buf (Elt Ideal) ℓ) (c : Dev nD) (i : S512x512.Idx) :
    V m c main_v47 i = bitVal (Cert.ReferenceIdeal.Read.val_main_v43 (F := Ideal) (m ((c.tc : Thread nD τ).loc main_arg5)) i) := by
  rw [V_neg, mulf_apply, subf_apply, splat_apply, ofBits_one, onesAt_apply, offDiag_apply, one_sub_bitVal_mul_one_sub]
  rfl

end Cert.KernelIdeal.Glue

end
-- ==== Proof.BlockRows.lean ====
/-
  A window's block, read as rows of its array.

  The three input windows cut their 512×512 arrays into 64 blocks of 8 full rows: at grid point `t` the block index is
  (t, 0), so entry (r, j) of the block is entry (8t + r, j) of the array as the region finds it.
-/
import proofs.«170872_j69793218560006_1_alg».proof.Proof.Gen.KernelIdeal.Frame
import proofs.«170872_j69793218560006_1_alg».proof.Proof.TripletSums
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.BlockRows

open Cert.KernelIdeal Cert.KernelIdeal.Gen Cert.Triplet

variable {F : FTy → Type} [FloatOps F]
variable (m : (ℓ : Loc nD τ sig) → Buf (Elt F) ℓ)

/-- The grid has 64 points. -/
theorem lt_N {n : ℕ} (h : n < 64) : n < cfg0.N := by rw [show cfg0.N = 64 from N_0]; exact h
theorem lt_64 (t : Fin cfg0.N) : t.val < 64 := lt_of_lt_of_eq t.isLt (show cfg0.N = 64 from N_0)

/-- Grid point `t` as a block number. -/
def blockOf (t : Fin cfg0.N) : Fin 64 := ⟨t.val, lt_64 t⟩

/-- The block index of each input window at point `t` is (t, 0): decided over the grid. -/
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

/-- The distance window's block at point `t`, entry (r, j): the distance matrix at row 8t + r. -/
theorem blk0_apply (c : Dev nD) (t : Fin cfg0.N) (r : Fin 8) (j : Fin 512) :
    (iblk m c 0 t : Vec F S8x512 .f32) (ix2 r j) = V m c main_v59 (ix2 (rowAt (blockOf t) r) j) := by
  have hi := index0 t
  unfold iblk
  rw [View.read_apply]
  show V m c main_v59 _ = V m c main_v59 _
  congr 1
  funext a
  apply Fin.ext
  match a with
  | ⟨0, _⟩ => show win0_0.index t 0 * 8 + 1 * r.val = 8 * t.val + r.val; rw [hi.1]; omega
  | ⟨1, _⟩ => show win0_0.index t 1 * 512 + 1 * j.val = j.val; rw [hi.2]; omega

/-- The first mask window's block at point `t`, entry (r, j): the first mask at row 8t + r. -/
theorem blk1_apply (c : Dev nD) (t : Fin cfg0.N) (r : Fin 8) (j : Fin 512) :
    (iblk m c 1 t : Vec F S8x512 .f32) (ix2 r j) = V m c main_v42 (ix2 (rowAt (blockOf t) r) j) := by
  have hi := index1 t
  unfold iblk
  rw [View.read_apply]
  show V m c main_v42 _ = V m c main_v42 _
  congr 1
  funext a
  apply Fin.ext
  match a with
  | ⟨0, _⟩ => show win0_1.index t 0 * 8 + 1 * r.val = 8 * t.val + r.val; rw [hi.1]; omega
  | ⟨1, _⟩ => show win0_1.index t 1 * 512 + 1 * j.val = j.val; rw [hi.2]; omega

/-- The second mask window's block at point `t`, entry (r, j): the second mask at row 8t + r. -/
theorem blk2_apply (c : Dev nD) (t : Fin cfg0.N) (r : Fin 8) (j : Fin 512) :
    (iblk m c 2 t : Vec F S8x512 .f32) (ix2 r j) = V m c main_v47 (ix2 (rowAt (blockOf t) r) j) := by
  have hi := index2 t
  unfold iblk
  rw [View.read_apply]
  show V m c main_v47 _ = V m c main_v47 _
  congr 1
  funext a
  apply Fin.ext
  match a with
  | ⟨0, _⟩ => show win0_2.index t 0 * 8 + 1 * r.val = 8 * t.val + r.val; rw [hi.1]; omega
  | ⟨1, _⟩ => show win0_2.index t 1 * 512 + 1 * j.val = j.val; rw [hi.2]; omega

end Cert.KernelIdeal.BlockRows

end
-- ==== Proof.BlockPayload.lean ====
/-
  The value the kernel body stores, at the extended reals.

  The three 8×512 input blocks are d (distance rows), p and n (the two weights' rows). For a row r and a chunk of 128
  columns starting at o, the body forms the 8×512×128 array
      t(r, j, l) = max(d(r, j) − d(r, o + l) + α, 0) · p(r, j) · n(r, o + l),
  sums it over l, then over j, and adds the four chunks' results (o = 0, 128, 256, 384) in that order onto zero; the 8 row
  totals are then summed and added to the old contents of the 1×1 output block. Here every layout operation is read at
  an index — a column spread over the lanes reads (r, j), a chunk spread over the middle axis reads (r, o + l) — and each
  lane sum is the finite sum over that axis's coordinates, so the stored value is
      acc + ∑ r, rowTotal (term d p n r),
  with `rowTotal` the four chunk sums added in order onto 0.
-/
import proofs.«170872_j69793218560006_1_alg».proof.Proof.Gen.KernelIdeal.Skeleton
import proofs.«170872_j69793218560006_1_alg».proof.Proof.TripletSums
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.BlockPayload

open Cert.KernelIdeal Cert.KernelIdeal.Gen

/-- A column cast to a trailing unit axis and spread over 128 lanes reads, at (r, j, l), the operand at (r, j). -/
theorem spreadCol_apply (x : FVec Ideal S8x512 .f32) (hc : S8x512.ShapeCasts S8x512x1) (hb : S8x512x1.Broadcasts S8x512x128)
    (r : Fin 8) (j : Fin 512) (l : Fin 128) :
    broadcastTo S8x512x128 (shapeCast S8x512x1 x hc) hb (ix3 r j l) = x (ix2 r j) := by
  refine (broadcastTo_apply _ hb (ix3 r j l) (ix3 r j (0 : Fin 1)) fun a => ?_).trans ?_
  · match a with
    | ⟨0, _⟩ => rfl
    | ⟨1, _⟩ => rfl
    | ⟨2, _⟩ => rfl
  · refine shapeCast_apply x hc (ix3 r j (0 : Fin 1)) (ix2 r j) ?_
    rw [Shape.rowMajor_val_two, Shape.rowMajor_val_three]
    show r.val * 512 + j.val = (r.val * 512 + j.val) * 1 + 0
    omega

/-- A chunk of 128 columns from offset `o`, cast to a middle unit axis and spread over the 512 positions of the middle
    axis, reads, at (r, j, l), the operand at (r, o + l). -/
theorem spreadChunk_apply (x : FVec Ideal S8x512 .f32) (o : Nat) (hs : S8x512.Slices ![0, o] S8x128)
    (hc : S8x128.ShapeCasts S8x1x128) (hb : S8x1x128.Broadcasts S8x512x128)
    (r : Fin 8) (j : Fin 512) (l : Fin 128) (k : Fin 512) (hk : k.val = o + l.val) :
    broadcastTo S8x512x128 (shapeCast S8x1x128 (extractStridedSlice S8x128 ![0, o] x hs) hc) hb (ix3 r j l) = x (ix2 r k) := by
  refine (broadcastTo_apply _ hb (ix3 r j l) (ix3 r (0 : Fin 1) l) fun a => ?_).trans ?_
  · match a with
    | ⟨0, _⟩ => rfl
    | ⟨1, _⟩ => rfl
    | ⟨2, _⟩ => rfl
  · refine (shapeCast_apply _ hc (ix3 r (0 : Fin 1) l) (ix2 r l) ?_).trans ?_
    · rw [Shape.rowMajor_val_two, Shape.rowMajor_val_three]
      show r.val * 128 + l.val = (r.val * 1 + 0) * 128 + l.val
      omega
    · refine extractStridedSlice_apply _ x hs (ix2 r l) (ix2 r k) fun a => ?_
      match a with
      | ⟨0, _⟩ => exact (Nat.zero_add _).symm
      | ⟨1, _⟩ => exact hk

/-- One weighted hinge term of block row r. -/
def term (d p n : FVec Ideal S8x512 .f32) (r : Fin 8) (j k : Fin 512) : EReal :=
  max (d (ix2 r j) - d (ix2 r k) + Ideal.ofBits .f32 0x3DCCCCCD#32) 0 * p (ix2 r j) * n (ix2 r k)

/-- The weighted hinge array at one index, from what its four operands read there. -/
theorem hinge_apply {s : Shape} (D Dk P N : FVec Ideal s .f32) (i : s.Idx) (x y u v : EReal)
    (hD : D i = x) (hDk : Dk i = y) (hP : P i = u) (hN : N i = v) :
    mulf (mulf (maximumf (addf (subf D Dk) (broadcast s (Scalar.ofBits .f32 0x3DCCCCCD#32)))
        (broadcast s (Scalar.ofBits .f32 0x00000000#32))) P) N i
      = max (x - y + Ideal.ofBits .f32 0x3DCCCCCD#32) 0 * u * v := by
  show max (D i - Dk i + Ideal.ofBits .f32 0x3DCCCCCD#32) (Ideal.ofBits .f32 0x00000000#32) * P i * N i = _
  rw [hD, hDk, hP, hN, Ideal.ofBits_zero_f32]

/-- The sum over the lanes, then over the middle axis, of an 8×512×128 array, read at row r. -/
theorem rowSum_of_read (A : FVec Ideal S8x512x128 .f32) (R : Fin 512 → Fin 128 → EReal) (r : Fin 8)
    (h2 : S8x512x128.Reduces [2] S8x512) (h1 : S8x512.Reduces [1] S8) (hφ : FKind.Formats .f32)
    (ha : (0x00000000#32 : BitVec 32) = FKind.add.neutral .f32 hφ)
    (hA : ∀ j l, A (ix3 r j l) = R j l) :
    multiReduction .add [1] S8 (multiReduction .add [2] S8x512 A 0x00000000#32 h2 hφ ha) 0x00000000#32 h1 hφ ha (ix1 r)
      = ∑ j : Fin 512, ∑ l : Fin 128, R j l := by
  rw [Ideal.multiReduction_add_single]
  refine Finset.sum_congr rfl fun j _ => ?_
  rw [Ideal.multiReduction_add_single]
  refine Finset.sum_congr rfl fun l _ => ?_
  refine Eq.trans (congrArg A ?_) (hA j l)
  funext a
  refine Fin.ext ?_
  match a with
  | ⟨0, _⟩ => rfl
  | ⟨1, _⟩ => rfl
  | ⟨2, _⟩ => rfl

/-- The single element of a one-element vector cast to 1×1, extracted. -/
theorem extract_cast_apply (v : FVec Ideal S1 .f32) (hc : S1.ShapeCasts S1x1) (hp : ∀ a, (![0, 0] : Fin 2 → Nat) a < S1x1.size a) :
    extractAt ![0, 0] (shapeCast S1x1 v hc) hp = v (ix1 (0 : Fin 1)) := by
  unfold extractAt
  refine shapeCast_apply v hc _ (ix1 (0 : Fin 1)) ?_
  rw [Shape.rowMajor_val_one, Shape.rowMajor_val_two]
  rfl

/-- The sum over the 8 rows of a vector cast to 1×8. -/
theorem rowsSum_apply (v : FVec Ideal S8 .f32) (hc : S8.ShapeCasts S1x8) (h : S1x8.Reduces [1] S1) (hφ : FKind.Formats .f32)
    (ha : (0x00000000#32 : BitVec 32) = FKind.add.neutral .f32 hφ) :
    multiReduction .add [1] S1 (shapeCast S1x8 v hc) 0x00000000#32 h hφ ha (ix1 (0 : Fin 1)) = ∑ r : Fin 8, v (ix1 r) := by
  rw [Ideal.multiReduction_add_single]
  refine Finset.sum_congr rfl fun r _ => ?_
  refine shapeCast_apply v hc _ (ix1 r) ?_
  rw [Shape.rowMajor_val_one, Shape.rowMajor_val_two]
  show r.val = 0 * 8 + r.val
  omega

/-- The stored value at the block's one index: the contents found plus the sum over the 8 rows of the row's accumulated total. -/
theorem stored_apply (d p n : FVec Ideal S8x512 .f32) (acc : FVec Ideal S1x1 .f32) (y : S1x1.Idx) :
    k0_pay1 (F := Ideal) (k0_pay10 (F := Ideal) (k0_pay3 d) (k0_pay4 p) (k0_pay5 n) (k0_pay6 d p n) (k0_pay7 n) (k0_pay8 d) (k0_pay9 p)) acc y
      = acc y + ∑ r : Fin 8, Cert.Triplet.rowTotal (term d p n r) := by
  have e3 : k0_pay3 (F := Ideal) d = d := shapeCast_self d _
  have e4 : k0_pay4 (F := Ideal) p = p := shapeCast_self p _
  have e5 : k0_pay5 (F := Ideal) n = n := shapeCast_self n _
  unfold k0_pay1
  rw [addf_apply, broadcast_apply, shapeCast_self, extract_cast_apply]
  refine congrArg (acc y + ·) ?_
  unfold k0_pay10 k0_pay6 k0_pay7 k0_pay8 k0_pay9
  rw [e3, e4, e5]
  refine (rowsSum_apply _ _ _ _ _).trans ?_
  refine Finset.sum_congr rfl fun r _ => ?_
  rw [addf_apply, addf_apply, addf_apply, addf_apply, broadcast_apply]
  unfold Cert.Triplet.rowTotal Cert.Triplet.chunkSum
  refine congrArg₂ (· + ·) (congrArg₂ (· + ·) (congrArg₂ (· + ·) (congrArg₂ (· + ·) Ideal.ofBits_zero_f32 ?_) ?_) ?_) ?_
  · refine rowSum_of_read _ (fun j l => term d p n r j (Cert.Triplet.colAt 0 l)) r _ _ _ _ fun j l => ?_
    exact hinge_apply _ _ _ _ _ _ _ _ _ (spreadCol_apply d _ _ r j l)
      (spreadChunk_apply d 0 _ _ _ r j l (Cert.Triplet.colAt 0 l) rfl) (spreadCol_apply p _ _ r j l)
      (spreadChunk_apply n 0 _ _ _ r j l (Cert.Triplet.colAt 0 l) rfl)
  · refine rowSum_of_read _ (fun j l => term d p n r j (Cert.Triplet.colAt 1 l)) r _ _ _ _ fun j l => ?_
    exact hinge_apply _ _ _ _ _ _ _ _ _ (spreadCol_apply d _ _ r j l)
      (spreadChunk_apply d 128 _ _ _ r j l (Cert.Triplet.colAt 1 l) rfl) (spreadCol_apply p _ _ r j l)
      (spreadChunk_apply n 128 _ _ _ r j l (Cert.Triplet.colAt 1 l) rfl)
  · refine rowSum_of_read _ (fun j l => term d p n r j (Cert.Triplet.colAt 2 l)) r _ _ _ _ fun j l => ?_
    exact hinge_apply _ _ _ _ _ _ _ _ _ (spreadCol_apply d _ _ r j l)
      (spreadChunk_apply d 256 _ _ _ r j l (Cert.Triplet.colAt 2 l) rfl) (spreadCol_apply p _ _ r j l)
      (spreadChunk_apply n 256 _ _ _ r j l (Cert.Triplet.colAt 2 l) rfl)
  · refine rowSum_of_read _ (fun j l => term d p n r j (Cert.Triplet.colAt 3 l)) r _ _ _ _ fun j l => ?_
    exact hinge_apply _ _ _ _ _ _ _ _ _ (spreadCol_apply d _ _ r j l)
      (spreadChunk_apply d 384 _ _ _ r j l (Cert.Triplet.colAt 3 l) rfl) (spreadCol_apply p _ _ r j l)
      (spreadChunk_apply n 384 _ _ _ r j l (Cert.Triplet.colAt 3 l) rfl)

end Cert.KernelIdeal.BlockPayload
end
-- ==== Proof.KernelTotal.lean ====
/-
  The kernel's result as the plain triple sum.

  Read on the extended reals, the value the body stores is "contents found + the block's number", the block's number being
  the sum over the block's 8 rows of the row's accumulated total of weighted hinge terms. So the carried 1×1 block after
  point n is the running total of the block numbers, and after the last point the sum of all 64. A block's rows are rows
  8t … 8t + 7 of the arrays the region finds, so the 64 block numbers are the block totals of ONE function of (i, j, k) over
  the whole arrays, and these add up to the plain triple sum. Last, the arrays are the reference's: the distance matrix
  is its stage, and each mask entry is the 0 / 1 value of its mask bit, so a term weighted by the two masks is the
  hinge where both bits are set and 0 elsewhere.
-/
import proofs.«170872_j69793218560006_1_alg».proof.Proof.KernelRun
import proofs.«170872_j69793218560006_1_alg».proof.Proof.KernelGlue
import proofs.«170872_j69793218560006_1_alg».proof.Proof.BlockRows
import proofs.«170872_j69793218560006_1_alg».proof.Proof.BlockPayload
import proofs.«170872_j69793218560006_1_alg».proof.Proof.TripletSums
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open scoped BigOperators

namespace Cert.KernelIdeal.Total

open Cert.KernelIdeal Cert.KernelIdeal.Gen Cert.Triplet
open Cert.KernelIdeal.CaseValue Cert.KernelIdeal.RunValue Cert.KernelIdeal.BlockRows Cert.KernelIdeal.Glue

variable (m : (ℓ : Loc nD τ sig) → Buf (Elt Ideal) ℓ)

/-- The three input blocks at a grid point, at their literal type. -/
abbrev dBlk (c : Dev nD) (t : Fin cfg0.N) : FVec Ideal S8x512 .f32 := iblk m c 0 t
abbrev pBlk (c : Dev nD) (t : Fin cfg0.N) : FVec Ideal S8x512 .f32 := iblk m c 1 t
abbrev nBlk (c : Dev nD) (t : Fin cfg0.N) : FVec Ideal S8x512 .f32 := iblk m c 2 t

/-- The three arrays the region finds, at their literal type. -/
abbrev dArr (c : Dev nD) : FVec Ideal S512x512 .f32 := V m c main_v59
abbrev pArr (c : Dev nD) : FVec Ideal S512x512 .f32 := V m c main_v42
abbrev nArr (c : Dev nD) : FVec Ideal S512x512 .f32 := V m c main_v47

/-- The number block `t` adds to the output: its 8 rows' accumulated totals. -/
def blockNum (c : Dev nD) (t : Fin 64) : EReal :=
  ∑ r : Fin 8, rowTotal (BlockPayload.term (dBlk m c ⟨t.val, lt_N t.isLt⟩) (pBlk m c ⟨t.val, lt_N t.isLt⟩)
    (nBlk m c ⟨t.val, lt_N t.isLt⟩) r)

/-- The zero block is 0. -/
theorem zeroBlock_apply (y : S1x1.Idx) : zeroBlock (F := Ideal) y = 0 := Ideal.ofBits_zero_f32

/-- The carried block after point `n` is the running total of the block numbers. -/
theorem acc_apply (c : Dev nD) : ∀ (n : ℕ) (h : n < cfg0.N) (y : S1x1.Idx),
    acc m c n h y = runningTotal (blockNum m c) n
  | 0, h, y => by
    refine (BlockPayload.stored_apply (dBlk m c ⟨0, h⟩) (pBlk m c ⟨0, h⟩) (nBlk m c ⟨0, h⟩) (zeroBlock (F := Ideal)) y).trans ?_
    rw [zeroBlock_apply]
    show _ = 0 + (if h' : 0 < 64 then blockNum m c ⟨0, h'⟩ else 0)
    rw [dif_pos (by decide)]
    rfl
  | n + 1, h, y => by
    have h64 : n + 1 < 64 := lt_of_lt_of_eq h N_0
    refine (BlockPayload.stored_apply (dBlk m c ⟨n + 1, h⟩) (pBlk m c ⟨n + 1, h⟩) (nBlk m c ⟨n + 1, h⟩)
      (acc m c n (Nat.lt_of_succ_lt h)) y).trans ?_
    rw [acc_apply c n]
    show _ = runningTotal (blockNum m c) n + (if h' : n + 1 < 64 then blockNum m c ⟨n + 1, h'⟩ else 0)
    rw [dif_pos h64]
    rfl

/-- One weighted hinge term over the whole arrays the region finds. -/
def wterm (c : Dev nD) (i j k : Fin 512) : EReal :=
  max (dArr m c (ix2 i j) - dArr m c (ix2 i k) + Ideal.ofBits .f32 0x3DCCCCCD#32) 0 * pArr m c (ix2 i j) * nArr m c (ix2 i k)

/-- A block's number is the block total of the whole-array terms: its rows are rows 8t … 8t + 7 of the arrays. -/
theorem blockNum_eq (c : Dev nD) (t : Fin 64) : blockNum m c t = blockTotal (wterm m c) t := by
  unfold blockNum blockTotal
  refine Finset.sum_congr rfl fun r _ => congrArg rowTotal (funext fun j => funext fun k => ?_)
  unfold BlockPayload.term wterm
  rw [show dBlk m c ⟨t.val, lt_N t.isLt⟩ (ix2 r j) = dArr m c (ix2 (rowAt t r) j) from blk0_apply m c ⟨t.val, lt_N t.isLt⟩ r j,
    show dBlk m c ⟨t.val, lt_N t.isLt⟩ (ix2 r k) = dArr m c (ix2 (rowAt t r) k) from blk0_apply m c ⟨t.val, lt_N t.isLt⟩ r k,
    show pBlk m c ⟨t.val, lt_N t.isLt⟩ (ix2 r j) = pArr m c (ix2 (rowAt t r) j) from blk1_apply m c ⟨t.val, lt_N t.isLt⟩ r j,
    show nBlk m c ⟨t.val, lt_N t.isLt⟩ (ix2 r k) = nArr m c (ix2 (rowAt t r) k) from blk2_apply m c ⟨t.val, lt_N t.isLt⟩ r k]

/-- The output array after the run holds the plain triple sum of the whole-array terms. -/
theorem result_apply (c : Dev nD) (y : S1x1.Idx) :
    result m c y = ∑ i : Fin 512, ∑ j : Fin 512, ∑ k : Fin 512, wterm m c i j k := by
  show acc m c 63 hlast y = _
  rw [acc_apply, runningTotal_last, Finset.sum_congr rfl fun t _ => blockNum_eq m c t, sum_blockTotal]

/-- A whole-array term, over the reference's stages: the hinge of the reference's distance matrix where both of the
    reference's mask bits are set, 0 elsewhere. -/
theorem wterm_eq (c : Dev nD) (i j k : Fin 512) :
    wterm m c i j k
      = (if (Cert.ReferenceIdeal.Read.val_main_v40 (F := Ideal) (m ((c.tc : Thread nD τ).loc main_arg5)) (ix2 i j)
            &&& Cert.ReferenceIdeal.Read.val_main_v43 (F := Ideal) (m ((c.tc : Thread nD τ).loc main_arg5)) (ix2 i k)) = 1#1
         then max (Cert.ReferenceIdeal.Read.val_main_v55 (F := Ideal) (m ((c.tc : Thread nD τ).loc main_arg4)) (ix2 i j)
                    - Cert.ReferenceIdeal.Read.val_main_v55 (F := Ideal) (m ((c.tc : Thread nD τ).loc main_arg4)) (ix2 i k)
                    + Ideal.ofBits .f32 0x3DCCCCCD#32) 0
         else 0) := by
  unfold wterm
  rw [show pArr m c (ix2 i j) = _ from pos_apply m c (ix2 i j), show nArr m c (ix2 i k) = _ from neg_apply m c (ix2 i k),
    show dArr m c = _ from V_dist m c, mul_bitVal_mul_bitVal]

/-- The kernel's scalar result: the reference's first loss term plus the masked triple sum over the reference's stages. -/
theorem value_apply (c : Dev nD) (y : S_.Idx) :
    (addf (V m c main_v14) (shapeCast S_ (result m c) shapeCasts_S1x1_S_) : FVec Ideal S_ .f32) y
      = Cert.ReferenceIdeal.Read.val_main_v14 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) y
        + ∑ i : Fin 512, ∑ j : Fin 512, ∑ k : Fin 512,
            (if (Cert.ReferenceIdeal.Read.val_main_v40 (F := Ideal) (m ((c.tc : Thread nD τ).loc main_arg5)) (ix2 i j)
                &&& Cert.ReferenceIdeal.Read.val_main_v43 (F := Ideal) (m ((c.tc : Thread nD τ).loc main_arg5)) (ix2 i k)) = 1#1
             then max (Cert.ReferenceIdeal.Read.val_main_v55 (F := Ideal) (m ((c.tc : Thread nD τ).loc main_arg4)) (ix2 i j)
                        - Cert.ReferenceIdeal.Read.val_main_v55 (F := Ideal) (m ((c.tc : Thread nD τ).loc main_arg4)) (ix2 i k)
                        + Ideal.ofBits .f32 0x3DCCCCCD#32) 0
             else 0) := by
  rw [addf_apply, V_loss, shapeCast_apply (result m c) shapeCasts_S1x1_S_ y (ix2 0 0) (by
    show (S1x1.rowMajor (ix2 (0 : Fin 1) (0 : Fin 1))).val = (S_.rowMajor y).val
    have hy := (S_.rowMajor y).isLt
    have hk := (S1x1.rowMajor (ix2 (0 : Fin 1) (0 : Fin 1))).isLt
    have e0 : S_.numel = 1 := by decide
    have e1 : S1x1.numel = 1 := by decide
    omega), result_apply]
  exact congrArg (fun z => _ + z) (Finset.sum_congr rfl fun i _ => Finset.sum_congr rfl fun j _ =>
    Finset.sum_congr rfl fun k _ => wterm_eq m c i j k)

end Cert.KernelIdeal.Total

end
-- ==== Proof.ReferenceValue.lean ====
/-
  The reference program's result, read on the extended reals, as a plain triple sum.

  The last stages of the reference form, for every triple (i, j, k), the term
  D(i,j) − D(i,k) + α, cut it off below at 0, keep it where the bit P(i,j) and the bit N(i,k) are both set and
  put 0 elsewhere, and add all 512³ terms onto 0; the total is added to the first loss term. Each stage reads its
  operands at one index, and a broadcast reads its operand at the coordinates it keeps: so the term at (i, j, k)
  reads D at (i, j) and at (i, k), P at (i, j) and N at (i, k). The sum over the rank-3 index set is the triple
  sum over its coordinates.
-/
import proofs.«170872_j69793218560006_1_alg».proof.Proof.Gen.ReferenceIdeal.Read
import proofs.«170872_j69793218560006_1_alg».proof.Proof.TripletSums
import Idealize.ShloMosaic.Lib.ValueIdx
import Idealize.ShloMosaic.PureOps.Ideal.Laws

noncomputable section

open Idealize.ShloMosaic Idealize.ShloMosaic.ValueIdx
open scoped BigOperators

namespace Cert.ReferenceIdeal.RefValue

open Cert.ReferenceIdeal Cert.ReferenceIdeal.Read

/-! ## Where the broadcasts read -/

/-- Spreading a matrix along a new last axis and then along `k`: the entry at (i, j, k) is the matrix's at (i, j). -/
theorem idx_keep_ij (i j k : Fin 512) :
    idx_main_v56 (idx_main_v58 (ix3 i j k)) = ix2 i j :=
  funext fun a => Fin.ext (by match a with | ⟨0, _⟩ => rfl | ⟨1, _⟩ => rfl)

/-- Spreading a matrix along a new middle axis and then along `j`: the entry at (i, j, k) is the matrix's at (i, k). -/
theorem idx_keep_ik (i j k : Fin 512) :
    idx_main_v57 (idx_main_v59 (ix3 i j k)) = ix2 i k :=
  funext fun a => Fin.ext (by match a with | ⟨0, _⟩ => rfl | ⟨1, _⟩ => rfl)

/-- The same for the first array of bits. -/
theorem idx_bit_ij (i j k : Fin 512) :
    idx_main_v63 (idx_main_v65 (ix3 i j k)) = ix2 i j :=
  funext fun a => Fin.ext (by match a with | ⟨0, _⟩ => rfl | ⟨1, _⟩ => rfl)

/-- The same for the second array of bits. -/
theorem idx_bit_ik (i j k : Fin 512) :
    idx_main_v64 (idx_main_v66 (ix3 i j k)) = ix2 i k :=
  funext fun a => Fin.ext (by match a with | ⟨0, _⟩ => rfl | ⟨1, _⟩ => rfl)

/-! ## The term at (i, j, k) -/

/-- The margin term: D(i,j) − D(i,k) + α. -/
theorem margin_at (x4 : (⟨S512x128, .f32⟩ : BufTy).Contents (Elt Ideal)) (i j k : Fin 512) :
    val_main_v62 (F := Ideal) x4 (ix3 i j k)
      = val_main_v55 (F := Ideal) x4 (ix2 i j) - val_main_v55 (F := Ideal) x4 (ix2 i k)
          + Ideal.ofBits .f32 0x3DCCCCCD#32 := by
  rw [val_main_v62_apply, val_main_v60_apply, val_main_v58_apply, val_main_v59_apply, val_main_v56_apply,
    val_main_v57_apply, val_main_v61_apply, val_main_cst_11_apply, idx_keep_ij, idx_keep_ik]
  rfl

/-- The margin term cut off below at 0. -/
theorem hinge_at (x4 : (⟨S512x128, .f32⟩ : BufTy).Contents (Elt Ideal)) (i j k : Fin 512) :
    val_main_v68 (F := Ideal) x4 (ix3 i j k)
      = max (val_main_v55 (F := Ideal) x4 (ix2 i j) - val_main_v55 (F := Ideal) x4 (ix2 i k)
          + Ideal.ofBits .f32 0x3DCCCCCD#32) 0 := by
  rw [val_main_v68_apply, margin_at, val_main_call0_v0_apply, val_main_call0_cst_apply, Ideal.ofBits_def,
    Ideal.ofBits_zero_f32]
  rfl

/-- The selecting bit: P(i,j) and N(i,k). -/
theorem bit_at (x5 : (⟨S512x16, .i32⟩ : BufTy).Contents (Elt Ideal)) (i j k : Fin 512) :
    val_main_v67 (F := Ideal) x5 (ix3 i j k)
      = (val_main_v40 (F := Ideal) x5 (ix2 i j) &&& val_main_v43 (F := Ideal) x5 (ix2 i k)) := by
  rw [val_main_v67_apply, val_main_v65_apply, val_main_v66_apply, val_main_v63_apply, val_main_v64_apply,
    idx_bit_ij, idx_bit_ik]
  rfl

/-- The value put where the bit is clear is 0. -/
theorem else_at (i : S512x512x512.Idx) : val_main_call1_v1 (F := Ideal) i = 0 := by
  rw [val_main_call1_v1_apply, val_main_call1_v0_apply, val_main_cst_12_apply, Ideal.ofBits_def,
    Ideal.ofBits_zero_f32]

/-- The selected term at (i, j, k). -/
theorem term_at (x4 : (⟨S512x128, .f32⟩ : BufTy).Contents (Elt Ideal))
    (x5 : (⟨S512x16, .i32⟩ : BufTy).Contents (Elt Ideal)) (i j k : Fin 512) :
    val_main_v69 (F := Ideal) x4 x5 (ix3 i j k)
      = (if (val_main_v40 (F := Ideal) x5 (ix2 i j) &&& val_main_v43 (F := Ideal) x5 (ix2 i k)) = 1#1
         then max (val_main_v55 (F := Ideal) x4 (ix2 i j) - val_main_v55 (F := Ideal) x4 (ix2 i k)
                    + Ideal.ofBits .f32 0x3DCCCCCD#32) 0
         else 0) := by
  rw [val_main_v69_apply, bit_at, hinge_at, else_at]
  rfl

/-! ## The result -/

theorem result_apply (x0 x1 x2 x3 x4 : (⟨S512x128, .f32⟩ : BufTy).Contents (Elt Ideal))
    (x5 : (⟨S512x16, .i32⟩ : BufTy).Contents (Elt Ideal)) (y : S_.Idx) :
    val_main_v71 (F := Ideal) x0 x1 x2 x3 x4 x5 y
      = val_main_v14 (F := Ideal) x0 x1 x2 x3 x4 y
        + (0 + ∑ i : Fin 512, ∑ j : Fin 512, ∑ k : Fin 512,
            (if (val_main_v40 (F := Ideal) x5 (ix2 i j) &&& val_main_v43 (F := Ideal) x5 (ix2 i k)) = 1#1
             then max (val_main_v55 (F := Ideal) x4 (ix2 i j) - val_main_v55 (F := Ideal) x4 (ix2 i k)
                        + Ideal.ofBits .f32 0x3DCCCCCD#32) 0
             else 0)) := by
  rw [val_main_v71_apply, Ideal.addf_def, val_main_v70_apply, val_main_cst_13_apply, Ideal.ofBits_def,
    Ideal.ofBits_zero_f32, Cert.Triplet.sum_idx3]
  refine congrArg (fun t => val_main_v14 (F := Ideal) x0 x1 x2 x3 x4 y + (0 + t)) ?_
  exact Finset.sum_congr rfl fun i _ => Finset.sum_congr rfl fun j _ => Finset.sum_congr rfl fun k _ =>
    term_at x4 x5 i j k

end Cert.ReferenceIdeal.RefValue

end
-- ==== Proof.lean ====
/-
  A triplet-margin loss: the kernel against its reference, over the extended reals.

  Both programs return L + S. L is a sum of four squared-difference terms of the embedding tables, computed by the same
  host operations on both sides. S is the triplet term: with D the matrix of squared distances of the 512 rows of one
  table (computed by the same host operations on both sides), M(i, j) = "j is listed in row i of the index array" and
  e the diagonal,

      S = ∑ over (i, j, k) with M(i, j), j ≠ i, ¬M(i, k), k ≠ i of max(D(i, j) − D(i, k) + α, 0),

  α the float literal 0.1 (the same bit pattern on both sides; it is never evaluated).

  The reference builds M by scattering `true` into a matrix of `false`, forms the two masks by logic, selects the
  hinge term by the conjunction of the two mask bits (0 elsewhere) and adds all 512³ terms onto 0. The kernel scatters
  the float 1 into zeros at the same indices, forms the masks by arithmetic (M · (1 − e) and (1 − M) · (1 − e)), and in a
  pipelined region over 64 blocks of 8 rows multiplies the hinge term by the two mask values, sums it over k in four
  chunks of 128 and over j, adds the four chunk sums of each row, the 8 rows of a block, and accumulates the 64 block
  sums in a 1×1 output block that is reset at the first grid point and written back after the last; a reshape and one
  addition after the region give L + S.

  The two results are equal on EVERY extended real input — the precondition is not used —, for three reasons: a scatter
  whose body returns the update commutes with any map of the elements, so the float scatter is the bit scatter read
  through bit ↦ 0 / 1, whatever the indices; a term times two 0 / 1 mask values is the term where both bits are set and
  0 elsewhere (x · 1 = x and x · 0 = 0 hold at the infinities too); and addition of extended reals is commutative and
  associative, so the tiled, accumulated sum is the plain triple sum.

  The frames of the two kernel programs are the generated frame certificates; the reference's is its generated run. The
  ideal pass rewrote nothing, so the kernel's idealization is the kernel's own text.
-/
import proofs.«170872_j69793218560006_1_alg».proof.Defs
import proofs.«170872_j69793218560006_1_alg».proof.Proof.Gen.Kernel
import proofs.«170872_j69793218560006_1_alg».proof.Proof.Gen.Kernel.Skeleton
import proofs.«170872_j69793218560006_1_alg».proof.Proof.Gen.Kernel.Launch
import proofs.«170872_j69793218560006_1_alg».proof.Proof.Gen.Kernel.Points
import proofs.«170872_j69793218560006_1_alg».proof.Proof.Gen.Kernel.Frame
import proofs.«170872_j69793218560006_1_alg».proof.Proof.Gen.KernelIdeal
import proofs.«170872_j69793218560006_1_alg».proof.Proof.Gen.KernelIdeal.Skeleton
import proofs.«170872_j69793218560006_1_alg».proof.Proof.Gen.KernelIdeal.Launch
import proofs.«170872_j69793218560006_1_alg».proof.Proof.Gen.KernelIdeal.Points
import proofs.«170872_j69793218560006_1_alg».proof.Proof.Gen.KernelIdeal.Frame
import proofs.«170872_j69793218560006_1_alg».proof.Proof.Gen.ReferenceIdeal
import proofs.«170872_j69793218560006_1_alg».proof.Proof.Gen.Pre_finite_inputs
import proofs.«170872_j69793218560006_1_alg».proof.Proof.Gen.ReferenceIdeal.Run
import proofs.«170872_j69793218560006_1_alg».proof.Proof.Gen.ReferenceIdeal.Read
import proofs.«170872_j69793218560006_1_alg».proof.Proof.KernelTotal
import proofs.«170872_j69793218560006_1_alg».proof.Proof.ReferenceValue
import Idealize.ShloMosaic.Adequacy
import Idealize.ShloMosaic.Init

noncomputable section

namespace Cert.Proof

open Idealize.ShloMosaic Idealize.SL.Sem

/-- The kernel as printed runs, and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals the kernel ends at L + (the masked triple sum over the reference's stages) and the reference at
    L + (0 + the same sum), of arguments that agree. -/
theorem algebraic : Cert.algebraic_KernelIdeal_ReferenceIdeal := by
  intro m ρ m' ρ' _ hagree
  refine ⟨_, Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v71_eq, h0, h1, h2, h3, h4, h5]
  funext y
  rw [Cert.ReferenceIdeal.RefValue.result_apply]
  refine Eq.trans ?_ (Cert.KernelIdeal.Total.value_apply m c y).symm
  rw [zero_add]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
